-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : FVec F S524288x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  main_v8
-- ==== Kernel.lean ====
abbrev S524288x128 : Shape := ⟨2, ![524288, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 3
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x128 : Shape := ⟨2, ![524288, 128]⟩
abbrev S_ : Shape := ⟨0, ![]⟩
abbrev S524288 : Shape := ⟨1, ![524288]⟩
abbrev S524288x1 : Shape := ⟨2, ![524288, 1]⟩

abbrev nBuf : Space → Nat
  | .hbm => 19
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S_, .f32⟩
  | .hbm, ⟨4, _⟩ => ⟨S524288, .f32⟩
  | .hbm, ⟨5, _⟩ => ⟨S524288, .f32⟩
  | .hbm, ⟨6, _⟩ => ⟨S_, .f32⟩
  | .hbm, ⟨7, _⟩ => ⟨S524288, .f32⟩
  | .hbm, ⟨8, _⟩ => ⟨S524288, .f32⟩
  | .hbm, ⟨9, _⟩ => ⟨S_, .f32⟩
  | .hbm, ⟨10, _⟩ => ⟨S524288, .f32⟩
  | .hbm, ⟨11, _⟩ => ⟨S524288, .f32⟩
  | .hbm, ⟨12, _⟩ => ⟨S_, .f32⟩
  | .hbm, ⟨13, _⟩ => ⟨S524288, .f32⟩
  | .hbm, ⟨14, _⟩ => ⟨S524288, .f32⟩
  | .hbm, ⟨15, _⟩ => ⟨S524288x1, .f32⟩
  | .hbm, ⟨16, _⟩ => ⟨S524288x128, .f32⟩
  | .hbm, ⟨17, _⟩ => ⟨S524288x128, .f32⟩
  | .hbm, ⟨18, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S524288x128_S524288_d1 : S524288x128.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)

variable [Facts₀]

class Facts : Prop extends Facts₀ where

variable [Facts]
-- ==== Proof.ClipSpec.lean ====
import Idealize.ShloMosaic.PureOps.Ideal
import Idealize.ShloMosaic.Lib.ValueIdx

/-!
# Clipping each row to the unit ball and adding noise, as one function of the two arrays

For a matrix `x` with `a` rows and `b` lanes, a row's squared length is `∑ k, x[r,k]²` and its length the square root
of that. The row's scale is `1 / max (length / 1, 1)`: a row no longer than one keeps its entries (the scale is one), a
longer row is shrunk onto the unit sphere. The result at `(r, q)` is `x[r,q] · scale r + noise[r,q]`.

Everything is on the extended reals, with the square root, the quotient and the maximum the exact ones there. The number
one is kept as the float word both programs print for it, so it is never evaluated. The scale of a row depends on that
row alone; this is what lets a block of whole rows be computed by itself (`clipNoise_rows`).
-/

noncomputable section

namespace Cert.ClipNoise

open Idealize.ShloMosaic Idealize.ShloMosaic.ValueIdx

/-- The float word of `1.0`, read on the extended reals. -/
abbrev one : EReal := Ideal.ofBits .f32 0x3F800000#32

/-- The squared length of row `r`: the sum over the lanes of the entry times itself. -/
def rowSumSq {a b : ℕ} (x : (⟨2, ![a, b]⟩ : Shape).Idx → EReal) (r : Fin a) : EReal :=
  ∑ k : Fin b, x (ix2 r k) * x (ix2 r k)

/-- The factor row `r` is multiplied by: one over the larger of the row's length (over the clip bound, one) and one. -/
def rowScale {a b : ℕ} (x : (⟨2, ![a, b]⟩ : Shape).Idx → EReal) (r : Fin a) : EReal :=
  Ideal.div one (max (Ideal.div (Ideal.sqrt (rowSumSq x r)) one) one)

/-- The clipped rows plus the noise, entry by entry. -/
def clipNoise {a b : ℕ} (x noise : (⟨2, ![a, b]⟩ : Shape).Idx → EReal) : (⟨2, ![a, b]⟩ : Shape).Idx → EReal :=
  fun i => x i * rowScale x (i 0) + noise i

/-- At an entry given by its coordinates. -/
theorem clipNoise_apply {a b : ℕ} (x noise : (⟨2, ![a, b]⟩ : Shape).Idx → EReal) (r : Fin a) (q : Fin b) :
    clipNoise x noise (ix2 r q) = x (ix2 r q) * rowScale x r + noise (ix2 r q) := rfl

/-- A row's scale is a function of that row's entries alone: two matrices that agree on row `r` of the one and row
    `r'` of the other give those rows the same scale. -/
theorem rowScale_congr {a a' b : ℕ} (x : (⟨2, ![a, b]⟩ : Shape).Idx → EReal) (x' : (⟨2, ![a', b]⟩ : Shape).Idx → EReal)
    (r : Fin a) (r' : Fin a') (h : ∀ k : Fin b, x (ix2 r k) = x' (ix2 r' k)) : rowScale x r = rowScale x' r' := by
  unfold rowScale rowSumSq
  simp only [h]

/-- So a block of whole rows is computed from the block alone: if `xb`, `nb` hold rows `o + ·` of `x`, `noise`, the
    function of the block at `(p, q)` is the function of the arrays at `(o + p, q)`. -/
theorem clipNoise_rows {a a' b : ℕ} (x noise : (⟨2, ![a, b]⟩ : Shape).Idx → EReal) (xb nb : (⟨2, ![a', b]⟩ : Shape).Idx → EReal)
    (p : Fin a') (r : Fin a) (hx : ∀ k : Fin b, xb (ix2 p k) = x (ix2 r k)) (hn : ∀ k : Fin b, nb (ix2 p k) = noise (ix2 r k))
    (q : Fin b) : clipNoise xb nb (ix2 p q) = clipNoise x noise (ix2 r q) := by
  rw [clipNoise_apply, clipNoise_apply, hx q, hn q, rowScale_congr xb x p r hx]

end Cert.ClipNoise

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.ClipBlock.lean ====
import proofs.«146308_j16990890623150_1_alg».proof.Proof.Gen.KernelIdeal.Value
import proofs.«146308_j16990890623150_1_alg».proof.Proof.ClipSpec
import proofs.«146308_j16990890623150_1_alg».proof.Proof.LibKeepdims

/-!
# One block of rows through the kernel body

The body loads a block of 8192 whole rows of `x` and the same rows of the noise, and stores one block of the result.
At an entry `(p, q)` of the block the stored value is the loaded `x` entry times a factor that depends on `p` alone,
plus the loaded noise entry. The factor comes from the lane sum of the squares of row `p`, kept as a column and
broadcast back along the lanes; read at `(p, q)` it is the sum over `k` of `x[p,k]²`, square-rooted, divided by one,
raised to at least one, and inverted. So the block the body leaves is the clipping function of the two loaded blocks,
entry by entry: no entry of the block looks outside its own row.
-/

noncomputable section

namespace Cert.ClipNoise.Block

open Idealize.ShloMosaic Idealize.ShloMosaic.ValueIdx Cert.ClipNoise
open Cert.KernelIdeal Cert.KernelIdeal.Gen Cert.KernelIdeal.Value

/-- The body's block function at the entry `(p, q)`: the clipping function of the loaded blocks there. The three
    places it reads its operands at are `(p, q)`, row `p` of the lane sum, and `(p, q)` again; the lane sum at row `p` is
    the sum over the lanes of the squared entries. -/
theorem blockFn_apply (P0 P1 : Vec Ideal S8192x128 .f32) (p : Fin 8192) (q : Fin 128) :
    E2 (F := Ideal) P0 P1 (ix2 p q) = clipNoise P0 P1 (ix2 p q) := by
  have e0 : ix2_0 (ix2 p q) = ix2 p q :=
    funext fun a => Fin.ext (by match a with | ⟨0, _⟩ => rfl | ⟨1, _⟩ => rfl)
  have e1 : ix2_1 (ix2 p q) = ix1 p :=
    funext fun a => Fin.ext (by match a with | ⟨0, _⟩ => rfl)
  have e2 : ix2_2 (ix2 p q) = ix2 p q :=
    funext fun a => Fin.ext (by match a with | ⟨0, _⟩ => rfl | ⟨1, _⟩ => rfl)
  dsimp only [E2]
  rw [e0, e1, e2]
  -- both sides are the same arithmetic of the row's squared length; only that number is spelt differently
  refine congrArg (fun s : EReal => (P0 (ix2 p q) : EReal) * Ideal.div one (max (Ideal.div (Ideal.sqrt s) one) one)
    + (P1 (ix2 p q) : EReal)) (?_ : _ = rowSumSq P0 p)
  exact Cert.LibKeepdims.rowSum_apply (mulf P0 P0) _ _ _ _ p

/-- The same at any index of the block. -/
theorem blockFn_eq (P0 P1 : Vec Ideal S8192x128 .f32) : E2 (F := Ideal) P0 P1 = clipNoise P0 P1 := by
  funext y
  obtain ⟨p, q, rfl⟩ : ∃ (p : Fin 8192) (q : Fin 128), y = ix2 p q := ⟨y 0, y 1, eq_ix2 y⟩
  exact blockFn_apply P0 P1 p q

end Cert.ClipNoise.Block

end
-- ==== Proof.ClipArray.lean ====
import proofs.«146308_j16990890623150_1_alg».proof.Proof.Gen.KernelIdeal.Value
import proofs.«146308_j16990890623150_1_alg».proof.Proof.ClipBlock

/-!
# From the blocks to the whole array

The grid has 64 points, and at point `t` every window — `x`, the noise, the result — is at block `(t, 0)`: rows
`8192·t` to `8192·t + 8191`, all 128 lanes. So row `p` of a point's block is row `8192·t + p` of the array, whole; the
block the body leaves is the clipping function of the loaded blocks, and a row's factor depends on that row alone, so
what point `t` writes back is block `t` of the clipping function of the two whole arrays. Row `r` of the array lies in
the block of point `r / 8192`, so the 64 blocks cover the array, and after the run the result array is the clipping
function of the arguments everywhere.
-/

noncomputable section

namespace Cert.ClipNoise.Kernel

open Idealize.ShloMosaic Idealize.ShloMosaic.TcCoe Idealize.ShloMosaic.ValueIdx Idealize.SL.Sem Cert.ClipNoise
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The body's one rectangle starts at the block's origin. -/
theorem origin : (![0, 0] : Fin 2 → Nat) = fun _ => 0 := funext fun a => by fin_cases a <;> rfl

/-- At point `t` each of the three windows is at block `(t, 0)`: decided over the 64 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := lt_of_lt_of_eq t.isLt N_0

/-- The row of the array under row `p` of point `t`'s block. -/
def rowOf (t : Fin cfg0.N) (p : Fin 8192) : Fin 524288 :=
  ⟨t.val * 8192 + p.val, by have := point_lt t; have := p.isLt; omega⟩

/-- The blocks of `x` and of the noise at point `t`, at their literal type. -/
abbrev xblk (c : Dev nD) (t : Fin cfg0.N) : Vec Ideal S8192x128 .f32 := iblk m c 0 t
abbrev nblk (c : Dev nD) (t : Fin cfg0.N) : Vec Ideal S8192x128 .f32 := iblk m c 1 t

/-- Entry `(p, k)` of each window's block at point `t` sits at `(8192·t + p, k)` of its array: a block's coordinate is the
    block index times the block's extent plus the coordinate inside. -/
theorem emb_x (t : Fin cfg0.N) (p : Fin 8192) (k : Fin 128) :
    ((cfg0.win 0).blk t).view.emb (ix2 p k) = ix2 (rowOf t p) k := by
  obtain ⟨a0, a1, -, -, -, -⟩ := block_index t
  funext a; apply Fin.ext
  match a with
  | ⟨0, _⟩ => show win0_0.index t (0 : Fin 2) * 8192 + 1 * p.val = t.val * 8192 + p.val; omega
  | ⟨1, _⟩ => show win0_0.index t (1 : Fin 2) * 128 + 1 * k.val = k.val; omega

theorem emb_noise (t : Fin cfg0.N) (p : Fin 8192) (k : Fin 128) :
    ((cfg0.win 1).blk t).view.emb (ix2 p k) = ix2 (rowOf t p) k := by
  obtain ⟨-, -, b0, b1, -, -⟩ := block_index t
  funext a; apply Fin.ext
  match a with
  | ⟨0, _⟩ => show win0_1.index t (0 : Fin 2) * 8192 + 1 * p.val = t.val * 8192 + p.val; omega
  | ⟨1, _⟩ => show win0_1.index t (1 : Fin 2) * 128 + 1 * k.val = k.val; omega

theorem emb_out (t : Fin cfg0.N) (p : Fin 8192) (k : Fin 128) :
    ((cfg0.win 2).blk t).view.emb (ix2 p k) = ix2 (rowOf t p) k := by
  obtain ⟨-, -, -, -, c0, c1⟩ := block_index t
  funext a; apply Fin.ext
  match a with
  | ⟨0, _⟩ => show win0_2.index t (0 : Fin 2) * 8192 + 1 * p.val = t.val * 8192 + p.val; omega
  | ⟨1, _⟩ => show win0_2.index t (1 : Fin 2) * 128 + 1 * k.val = k.val; omega

/-- Row `p` of the `x` block at point `t` is row `8192·t + p` of `x`; the same for the noise. -/
theorem xblk_row (c : Dev nD) (t : Fin cfg0.N) (p : Fin 8192) (k : Fin 128) :
    xblk m c t (ix2 p k) = V m c main_arg0 (ix2 (rowOf t p) k) := by
  show V m c main_arg0 (((cfg0.win 0).blk t).view.emb (ix2 p k)) = _
  rw [emb_x]

theorem nblk_row (c : Dev nD) (t : Fin cfg0.N) (p : Fin 8192) (k : Fin 128) :
    nblk m c t (ix2 p k) = V m c main_arg1 (ix2 (rowOf t p) k) := by
  show V m c main_arg1 (((cfg0.win 1).blk t).view.emb (ix2 p k)) = _
  rw [emb_noise]

/-- What point `t` writes back is block `t` of the clipping function of the two arrays as the region finds them. -/
theorem flushed_eq (c : Dev nD) (t : Fin cfg0.N) :
    (dats m 0 c).flushed 2 t
      = ((cfg0.win 2).blk t).view.read (Elt Ideal) (clipNoise (V m c main_arg0) (V m c main_arg1)) := by
  rw [flushed2]
  unfold out0_2
  simp only [View.ld_unit_zero (S := S8192x128) origin]
  funext j
  obtain ⟨p, q, rfl⟩ : ∃ (p : Fin 8192) (q : Fin 128), j = ix2 p q := ⟨j 0, j 1, eq_ix2 j⟩
  show _ = clipNoise (V m c main_arg0) (V m c main_arg1) (((cfg0.win 2).blk t).view.emb (ix2 p q))
  refine (canon2_eq (F := Ideal) (xblk m c t) (nblk m c t) (ix2 p q)).trans ?_
  refine (Block.blockFn_apply (xblk m c t) (nblk m c t) p q).trans ?_
  rw [emb_out]
  exact clipNoise_rows (V m c main_arg0) (V m c main_arg1) (xblk m c t) (nblk m c t) p (rowOf t p)
    (fun k => xblk_row m c t p k) (fun k => nblk_row m c t p k) q

/-- An index of the array is in point `t`'s block iff each coordinate is in the block's range on its axis. -/
theorem mem_block (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- Every index of the array is in the block of the point its row falls to: row `r` is in block `r / 8192`. -/
theorem covered (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ : ∃ t : Fin cfg0.N, t.val = (i 0).val / 8192 :=
    ⟨⟨(i 0).val / 8192, lt_of_lt_of_eq (by omega : (i 0).val / 8192 < 64) N_0.symm⟩, rfl⟩
  obtain ⟨-, -, -, -, c0, c1⟩ := block_index t
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- The result array after the run is the clipping function of the argument arrays. -/
theorem final (c : Dev nD) :
    (dats m 0 c).arrAt 2 cfg0.N
      = clipNoise (m ((c : Thread nD τ).loc main_arg0)) (m ((c : Thread nD τ).loc main_arg1)) :=
  (dats m 0 c).arrAt_eq_of_cover 2 (clipNoise (V m c main_arg0) (V m c main_arg1)) (fun t _ => flushed_eq m c t) covered

/-- The kernel's run: it ends with the result at the clipping function of the arguments, the arguments unchanged. -/
theorem run : θ_run defs (onTc (τ := τ) (main (F := Ideal))) ⟨m, fun _ => 0, ρ⟩ fun r => ∀ c : Dev nD,
      r.2.mem ((c : Thread nD τ).loc main_v0)
        = clipNoise (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ClipNoise.Kernel

end
-- ==== Proof.ClipReference.lean ====
import proofs.«146308_j16990890623150_1_alg».proof.Proof.Gen.ReferenceIdeal.Read
import proofs.«146308_j16990890623150_1_alg».proof.Proof.ClipSpec

/-!
# The reference computes the clipping function

The reference takes each row's length as the square root of the sum of its squared entries started from zero, divides
it by one, takes the larger of that and one, and inverts it: a vector with one factor per row. The vector is laid as a
column and broadcast along the lanes, multiplied into `x` entry by entry, and the noise is added. Read at `(r, q)`: the
two broadcasts read the factor of row `r`, and the sum started from the zero word is the bare sum, since that word is
the real number zero. So the result is the clipping function of the two argument arrays.
-/

noncomputable section

namespace Cert.ClipNoise.Reference

open Idealize.ShloMosaic Idealize.ShloMosaic.ValueIdx Cert.ClipNoise
open Cert.ReferenceIdeal Cert.ReferenceIdeal.Gen Cert.ReferenceIdeal.Read

/-- The reference's last stage is the clipping function of its two arguments. -/
theorem result_eq (x noise : (⟨S524288x128, .f32⟩ : BufTy).Contents (Elt Ideal)) :
    val_main_v10 (F := Ideal) x noise = clipNoise x noise := by
  funext i
  obtain ⟨r, q, rfl⟩ : ∃ (r : Fin 524288) (q : Fin 128), i = ix2 r q := ⟨i 0, i 1, eq_ix2 i⟩
  -- the two broadcasts read row `r` of the factor vector; the sum's `k`-th term is the entry `(r, k)`
  have e8 : idx_main_v8 (ix2 r q) = ix2 r (0 : Fin 1) :=
    funext fun a => Fin.ext (by match a with | ⟨0, _⟩ => rfl | ⟨1, _⟩ => rfl)
  have e7 : idx_main_v7 (ix2 r (0 : Fin 1)) = ix1 r :=
    funext fun a => Fin.ext (by match a with | ⟨0, _⟩ => rfl)
  have ek : ∀ k : Fin 128, idx_main_call0_v1 (ix1 r) k = ix2 r k := fun k =>
    funext fun a => Fin.ext (by match a with | ⟨0, _⟩ => rfl | ⟨1, _⟩ => rfl)
  rw [val_main_v10_apply, val_main_v9_apply, val_main_v8_apply, e8, val_main_v7_apply, e7, val_main_v6_apply,
    val_main_v5_apply, val_main_cst_1_apply, val_main_v4_apply, val_main_v3_apply, val_main_cst_0_apply,
    val_main_v2_apply, val_main_v1_apply, val_main_cst_apply, val_main_v0_apply, val_main_call0_v1_apply,
    val_main_call0_cst_apply]
  simp only [ek, val_main_call0_v0_apply, clipNoise_apply, rowScale, rowSumSq, Ideal.addf_def, Ideal.mulf_def,
    Ideal.hostDivf_def, Ideal.maximumf_def, Ideal.hostUnary_sqrt_def, Ideal.ofBits_def, Ideal.ofBits_zero_f32, zero_add]

end Cert.ClipNoise.Reference

end
-- ==== Proof.lean ====
/-
  Clipping each row of `x` to the unit ball and adding noise: the kernel against its reference, on the extended reals.

  Both programs compute, at row `r` and lane `q`, `x[r,q] · (1 / max (√(∑ k, x[r,k]²) / 1, 1)) + noise[r,q]`, with the
  same float word for every `1`, the square root, the quotient and the maximum the exact ones. The kernel does it on
  64 blocks of 8192 whole rows, the lane sum kept as a column and broadcast back along the lanes; the reference on the
  whole array, the factors as a vector laid as a column and broadcast along the lanes. A row's factor depends on that
  row alone, so the blocks are restrictions of one function of the two arrays (`Cert.ClipNoise.clipNoise`), and the
  one place the two spellings differ is the start of the sum: the reference starts it from the zero word, which is the
  real number zero. No step moves a factor across a sum or cancels one, so nothing is asked of the inputs beyond what the
  frames ask.

  The three frames: the kernel's two by the generated frame runs, the reference's by its generated run with the result
  dropped. The idealization rewrote nothing, so there is nothing to preserve.
-/
import proofs.«146308_j16990890623150_1_alg».proof.Defs
import proofs.«146308_j16990890623150_1_alg».proof.Proof.Gen.Kernel
import proofs.«146308_j16990890623150_1_alg».proof.Proof.Gen.Kernel.Skeleton
import proofs.«146308_j16990890623150_1_alg».proof.Proof.Gen.Kernel.Launch
import proofs.«146308_j16990890623150_1_alg».proof.Proof.Gen.Kernel.Points
import proofs.«146308_j16990890623150_1_alg».proof.Proof.Gen.Kernel.Frame
import proofs.«146308_j16990890623150_1_alg».proof.Proof.Gen.KernelIdeal
import proofs.«146308_j16990890623150_1_alg».proof.Proof.Gen.KernelIdeal.Skeleton
import proofs.«146308_j16990890623150_1_alg».proof.Proof.Gen.KernelIdeal.Launch
import proofs.«146308_j16990890623150_1_alg».proof.Proof.Gen.KernelIdeal.Points
import proofs.«146308_j16990890623150_1_alg».proof.Proof.Gen.KernelIdeal.Frame
import proofs.«146308_j16990890623150_1_alg».proof.Proof.Gen.ReferenceIdeal
import proofs.«146308_j16990890623150_1_alg».proof.Proof.Gen.Pre_finite_inputs
import proofs.«146308_j16990890623150_1_alg».proof.Proof.Gen.KernelIdeal.Value
import proofs.«146308_j16990890623150_1_alg».proof.Proof.Gen.ReferenceIdeal.Run
import proofs.«146308_j16990890623150_1_alg».proof.Proof.Gen.ReferenceIdeal.Read
import proofs.«146308_j16990890623150_1_alg».proof.Proof.ClipArray
import proofs.«146308_j16990890623150_1_alg».proof.Proof.ClipReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and the noise, the kernel ends with its result at the clipping function of its
    arguments and the reference with its result at the clipping function of its own: the same array. -/
theorem algebraic : Cert.algebraic_KernelIdeal_ReferenceIdeal := by
  intro m ρ m' ρ' _ hagree
  refine ⟨fun c => Cert.ClipNoise.clipNoise (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.ClipNoise.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ClipNoise.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
